-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2x419430 : Shape := ⟨2, ![2, 419430]⟩
abbrev S419430 : Shape := ⟨1, ![419430]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S419430 : S_.BroadcastsInDim S419430 (![] : Fin 0 → Fin S419430.rank)
  reducesTo_S419430_S_d0 : S419430.ReducesTo [0] S_
  reducesTo_S_S_d : S_.ReducesTo [] S_
  bcast_S_S2x419430 : S_.BroadcastsInDim S2x419430 (![] : Fin 0 → Fin S2x419430.rank)
  reducesTo_S2x419430_S_d0_1 : S2x419430.ReducesTo [0, 1] S_

variable [Facts]

def fn_part1 {F : FTy → Type} [FloatOps F] (main_arg1 : IVec S2x419430 32) (main_v12 : IVec S_ 1) (main_v14 : IVec S2x419430 1) (main_v15 : IVec S2x419430 32) : IVec S_ 1 :=
  let main_v16 : IVec S2x419430 1 := cmpi .slt main_arg1 main_v15
  let main_v17 : IVec S2x419430 1 := andi main_v14 main_v16
  let main_c_6 : IVec S_ 1 := constantI S_ 1 1#1
  let main_v18 : IVec S_ 1 := (fun x v => Host.reduce IntOp.andi x v reducesTo_S2x419430_S_d0_1 h_S_) main_v17 main_c_6
  let main_v19 : IVec S_ 1 := andi main_v12 main_v18
  main_v19

def fn {F : FTy → Type} [FloatOps F] (main_arg0 : FVec F S4x2048x2048 .f32) (main_arg1 : IVec S2x419430 32) (main_arg2 : FVec F S419430 .f32) (main_arg3 : FVec F S_ .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S419430 .f32 := Host.absf main_arg2
  let main_cst_0 : FVec F S_ .f32 := constant S_ .f32 0x7F800000#32
  let main_v5 : FVec F S419430 .f32 := broadcastInDim S419430 ![] bcast_S_S419430 main_cst_0
  let main_v6 : IVec S419430 1 := cmpf .olt main_v4 main_v5
  let main_c_1 : IVec S_ 1 := constantI S_ 1 1#1
  let main_v7 : IVec S_ 1 := (fun x v => Host.reduce IntOp.andi x v reducesTo_S419430_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S2x419430 32 := broadcastInDim S2x419430 ![] bcast_S_S2x419430 main_c_4
  let main_v14 : IVec S2x419430 1 := cmpi .sge main_arg1 main_v13
  let main_c_5 : IVec S_ 32 := constantI S_ 32 2048#32
  let main_v15 : IVec S2x419430 32 := broadcastInDim S2x419430 ![] bcast_S_S2x419430 main_c_5
  fn_part1 (F := F) main_arg1 main_v12 main_v14 main_v15
-- ==== Kernel.lean ====
abbrev S4x2048x2048 : Shape := ⟨3, ![4, 2048, 2048]⟩
abbrev S2x419430 : Shape := ⟨2, ![2, 419430]⟩
abbrev S419430 : Shape := ⟨1, ![419430]⟩
abbrev S_ : Shape := ⟨0, ![]⟩
abbrev S1x419430 : Shape := ⟨2, ![1, 419430]⟩
abbrev S4194304 : Shape := ⟨1, ![4194304]⟩
abbrev S419430x1 : Shape := ⟨2, ![419430, 1]⟩
abbrev S2048x2048 : Shape := ⟨2, ![2048, 2048]⟩
abbrev S8192x2048 : Shape := ⟨2, ![8192, 2048]⟩
abbrev S512x2048 : Shape := ⟨2, ![512, 2048]⟩

abbrev nBuf : Space → Nat
  | .hbm => 30
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x419430, .i32⟩
  | .hbm, ⟨2, _⟩ => ⟨S419430, .f32⟩
  | .hbm, ⟨3, _⟩ => ⟨S_, .f32⟩
  | .hbm, ⟨4, _⟩ => ⟨S1x419430, .i32⟩
  | .hbm, ⟨5, _⟩ => ⟨S419430, .i32⟩
  | .hbm, ⟨6, _⟩ => ⟨S_, .i32⟩
  | .hbm, ⟨7, _⟩ => ⟨S419430, .i32⟩
  | .hbm, ⟨8, _⟩ => ⟨S419430, .i32⟩
  | .hbm, ⟨9, _⟩ => ⟨S1x419430, .i32⟩
  | .hbm, ⟨10, _⟩ => ⟨S419430, .i32⟩
  | .hbm, ⟨11, _⟩ => ⟨S419430, .i32⟩
  | .hbm, ⟨12, _⟩ => ⟨S419430, .f32⟩
  | .hbm, ⟨13, _⟩ => ⟨S419430, .f32⟩
  | .hbm, ⟨14, _⟩ => ⟨S_, .f32⟩
  | .hbm, ⟨15, _⟩ => ⟨S4194304, .f32⟩
  | .hbm, ⟨16, _⟩ => ⟨S_, .i32⟩
  | .hbm, ⟨17, _⟩ => ⟨S419430, .i32⟩
  | .hbm, ⟨18, _⟩ => ⟨S419430, .i1⟩
  | .hbm, ⟨19, _⟩ => ⟨S_, .i32⟩
  | .hbm, ⟨20, _⟩ => ⟨S419430, .i32⟩
  | .hbm, ⟨21, _⟩ => ⟨S419430, .i32⟩
  | .hbm, ⟨22, _⟩ => ⟨S419430, .i32⟩
  | .hbm, ⟨23, _⟩ => ⟨S419430x1, .i32⟩
  | .hbm, ⟨24, _⟩ => ⟨S4194304, .f32⟩
  | .hbm, ⟨25, _⟩ => ⟨S2048x2048, .f32⟩
  | .hbm, ⟨26, _⟩ => ⟨S2048x2048, .bf16⟩
  | .hbm, ⟨27, _⟩ => ⟨S8192x2048, .f32⟩
  | .hbm, ⟨28, _⟩ => ⟨S8192x2048, .f32⟩
  | .hbm, ⟨29, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x419430_S1x419430_1_0 : S2x419430.Slices ![1, 0] S1x419430
  shapeCasts_S1x419430_S419430 : S1x419430.ShapeCasts S419430
  bcast_S_S419430 : S_.BroadcastsInDim S419430 (![] : Fin 0 → Fin S419430.rank)
  slices_S2x419430_S1x419430_0_0 : S2x419430.Slices ![0, 0] S1x419430
  bcast_S_S4194304 : S_.BroadcastsInDim S4194304 (![] : Fin 0 → Fin S4194304.rank)
  bcast_S419430_S419430x1_0 : S419430.BroadcastsInDim S419430x1 (![0] : Fin 1 → Fin S419430x1.rank)
  shapeCasts_S4194304_S2048x2048 : S4194304.ShapeCasts S2048x2048
  bitsLt_bf16_f32 : FTy.bits .bf16 < FTy.bits .f32
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x2048_S4x2048x2048 : S8192x2048.ShapeCasts S4x2048x2048
  scatter_S4194304_S419430x1_S419430_n_0_0_1_wf : ScatterDims.WF S4194304 S419430x1 S419430 [] [0] [0] 1
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)

variable [Facts₀]

def scatter_S4194304_S419430x1_S419430_n_0_0_1 : ScatterDims S4194304 S419430x1 S419430 where
  updateWindowDims := []
  insertedWindowDims := [0]
  scatterDimsToOperandDims := [0]
  indexVectorDim := 1
  wf := scatter_S4194304_S419430x1_S419430_n_0_0_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v19) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2x419430 : Shape := ⟨2, ![2, 419430]⟩
abbrev S419430 : Shape := ⟨1, ![419430]⟩
abbrev S_ : Shape := ⟨0, ![]⟩
abbrev S2048x2048 : Shape := ⟨2, ![2048, 2048]⟩
abbrev S1x419430 : Shape := ⟨2, ![1, 419430]⟩
abbrev S419430x1 : Shape := ⟨2, ![419430, 1]⟩
abbrev S419430x2 : Shape := ⟨2, ![419430, 2]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x419430, .i32⟩
  | .hbm, ⟨2, _⟩ => ⟨S419430, .f32⟩
  | .hbm, ⟨3, _⟩ => ⟨S_, .f32⟩
  | .hbm, ⟨4, _⟩ => ⟨S_, .f32⟩
  | .hbm, ⟨5, _⟩ => ⟨S2048x2048, .f32⟩
  | .hbm, ⟨6, _⟩ => ⟨S1x419430, .i32⟩
  | .hbm, ⟨7, _⟩ => ⟨S419430, .i32⟩
  | .hbm, ⟨8, _⟩ => ⟨S1x419430, .i32⟩
  | .hbm, ⟨9, _⟩ => ⟨S419430, .i32⟩
  | .hbm, ⟨10, _⟩ => ⟨S_, .i32⟩
  | .hbm, ⟨11, _⟩ => ⟨S419430, .i32⟩
  | .hbm, ⟨12, _⟩ => ⟨S419430, .i1⟩
  | .hbm, ⟨13, _⟩ => ⟨S_, .i32⟩
  | .hbm, ⟨14, _⟩ => ⟨S419430, .i32⟩
  | .hbm, ⟨15, _⟩ => ⟨S419430, .i32⟩
  | .hbm, ⟨16, _⟩ => ⟨S419430, .i32⟩
  | .hbm, ⟨17, _⟩ => ⟨S_, .i32⟩
  | .hbm, ⟨18, _⟩ => ⟨S419430, .i32⟩
  | .hbm, ⟨19, _⟩ => ⟨S419430, .i1⟩
  | .hbm, ⟨20, _⟩ => ⟨S_, .i32⟩
  | .hbm, ⟨21, _⟩ => ⟨S419430, .i32⟩
  | .hbm, ⟨22, _⟩ => ⟨S419430, .i32⟩
  | .hbm, ⟨23, _⟩ => ⟨S419430, .i32⟩
  | .hbm, ⟨24, _⟩ => ⟨S419430x1, .i32⟩
  | .hbm, ⟨25, _⟩ => ⟨S419430x1, .i32⟩
  | .hbm, ⟨26, _⟩ => ⟨S419430x2, .i32⟩
  | .hbm, ⟨27, _⟩ => ⟨S2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  slices_S2x419430_S1x419430_0_0 : S2x419430.Slices ![0, 0] S1x419430
  shapeCasts_S1x419430_S419430 : S1x419430.ShapeCasts S419430
  slices_S2x419430_S1x419430_1_0 : S2x419430.Slices ![1, 0] S1x419430
  bcast_S_S419430 : S_.BroadcastsInDim S419430 (![] : Fin 0 → Fin S419430.rank)
  bcast_S419430_S419430x1_0 : S419430.BroadcastsInDim S419430x1 (![0] : Fin 1 → Fin S419430x1.rank)
  concatenates_S419430x1_S419430x1_S419430x2_d1 : Shape.Concatenates [S419430x1, S419430x1] S419430x2 1
  bcast_S_S4x2048x2048 : S_.BroadcastsInDim S4x2048x2048 (![] : Fin 0 → Fin S4x2048x2048.rank)
  scatter_S2048x2048_S419430x2_S419430_n_01_01_1_wf : ScatterDims.WF S2048x2048 S419430x2 S419430 [] [0, 1] [0, 1] 1
  dot_S4x2048x2048_S2048x2048_S4x2048x2048_2_1_01_0_n_n_wf : DotDims.WF S4x2048x2048 S2048x2048 S4x2048x2048 [2] [1] [0, 1] [0] [] []

variable [Facts₀]

def scatter_S2048x2048_S419430x2_S419430_n_01_01_1 : ScatterDims S2048x2048 S419430x2 S419430 where
  updateWindowDims := []
  insertedWindowDims := [0, 1]
  scatterDimsToOperandDims := [0, 1]
  indexVectorDim := 1
  wf := scatter_S2048x2048_S419430x2_S419430_n_01_01_1_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/-
  The specification shared by both programs: a dense 2048 × 2048 matrix rebuilt from a coordinate list, and the
  residual product with it.

  A connection k carries a row word r(k) = idx[0, k], a column word c(k) = idx[1, k] and a value v(k). Entry (p, q) of the
  dense matrix W is the sum of the values of the connections whose words, read signed, are exactly (p, q):
      W[p, q] = ∑ { v(k) : r(k) = p, c(k) = q }        (connSet, dense).
  The result at (b, s, i) is
      x[b, s, i] + α · ∑_j x[b, s, j] · W[i, j]          (outR: the scale applied after the product), or
      x[b, s, i] + ∑_j x[b, s, j] · ∑ { v(k) · α : r(k) = i, c(k) = j }   (outK: the scale folded into each value).
  On finite inputs the two agree: every term is a real number, α moves across both finite sums by distributivity
  (outK_eq_outR). At infinite inputs distributivity over the extended reals fails, so finiteness is used.
-/
import Idealize.ShloMosaic.PureOps.Ideal
import Idealize.ShloMosaic.Lib.ValueIdx

noncomputable section

open scoped BigOperators

namespace Cert.Lateral

open Idealize.ShloMosaic Idealize.ShloMosaic.ValueIdx

abbrev SX : Shape := ⟨3, ![4, 2048, 2048]⟩
abbrev SI : Shape := ⟨2, ![2, 419430]⟩
abbrev SV : Shape := ⟨1, ![419430]⟩
abbrev S0 : Shape := ⟨0, ![]⟩

/-- Row word and column word of connection `k`, read signed. -/
def rowOf (idx : IVec SI 32) (k : SV.Idx) : Int := (idx (ix2 (0 : Fin 2) (k 0))).toInt
def colOf (idx : IVec SI 32) (k : SV.Idx) : Int := (idx (ix2 (1 : Fin 2) (k 0))).toInt

/-- The connections that name entry (p, q) of the dense matrix. -/
def connSet (idx : IVec SI 32) (p q : Fin 2048) : Finset SV.Idx :=
  Finset.univ.filter fun k => rowOf idx k = (p.val : Int) ∧ colOf idx k = (q.val : Int)

/-- Entry (p, q) of the dense matrix: the sum of the values of the connections naming it. -/
def dense (idx : IVec SI 32) (v : SV.Idx → EReal) (p q : Fin 2048) : EReal := ∑ k ∈ connSet idx p q, v k

/-- The result with the scale applied after the product. -/
def outR (x : SX.Idx → EReal) (idx : IVec SI 32) (v : SV.Idx → EReal) (α : S0.Idx → EReal)
    (b : Fin 4) (s i : Fin 2048) : EReal :=
  x (ix3 b s i) + α ix0 * ∑ j : Fin 2048, x (ix3 b s j) * dense idx v i j

/-- The result with the scale folded into every scattered value. -/
def outK (x : SX.Idx → EReal) (idx : IVec SI 32) (v : SV.Idx → EReal) (α : S0.Idx → EReal)
    (b : Fin 4) (s i : Fin 2048) : EReal :=
  x (ix3 b s i) + ∑ j : Fin 2048, x (ix3 b s j) * ∑ k ∈ connSet idx i j, v k * α ix0

/-- The whole result array. -/
def G (x : SX.Idx → EReal) (idx : IVec SI 32) (v : SV.Idx → EReal) (α : S0.Idx → EReal) : SX.Idx → EReal :=
  fun i => outR x idx v α (i 0) (i 1) (i 2)

/-- A finite sum of real numbers, read in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On real inputs the two arrangements agree. -/
theorem outK_eq_outR (x : SX.Idx → EReal) (idx : IVec SI 32) (v : SV.Idx → EReal) (α : S0.Idx → EReal)
    (hx : ∀ i, ∃ r : ℝ, x i = (r : EReal)) (hv : ∀ k, ∃ r : ℝ, v k = (r : EReal)) (hα : ∃ r : ℝ, α ix0 = (r : EReal))
    (b : Fin 4) (s i : Fin 2048) : outK x idx v α b s i = outR x idx v α b s i := by
  obtain ⟨xr, rfl⟩ : ∃ xr : SX.Idx → ℝ, x = fun i => ((xr i : ℝ) : EReal) :=
    ⟨fun i => (hx i).choose, funext fun i => (hx i).choose_spec⟩
  obtain ⟨vr, rfl⟩ : ∃ vr : SV.Idx → ℝ, v = fun k => ((vr k : ℝ) : EReal) :=
    ⟨fun k => (hv k).choose, funext fun k => (hv k).choose_spec⟩
  obtain ⟨a, ha⟩ := hα
  unfold outK outR dense
  simp only [ha, ← EReal.coe_mul, coe_sum, ← EReal.coe_add]
  congr 2
  rw [Finset.mul_sum]
  refine Finset.sum_congr rfl fun j _ => ?_
  rw [← Finset.sum_mul]
  ring

end Cert.Lateral

end
-- ==== Proof.PreDecode.lean ====
/-
  What the precondition says, read off its printed predicate: every entry of x, every value and the scale are real
  numbers, and every index word, read signed, lies in [0, 2048).
-/
import proofs.«405993_j69458211111443_2_alg».proof.Pre_finite_inputs
import proofs.«405993_j69458211111443_2_alg».proof.Proof.Spec
import Idealize.ShloMosaic.Lib.ReduceAll
import Idealize.ShloMosaic.Lib.StableHlo.Predicate

noncomputable section

namespace Cert.Lateral

open Idealize.ShloMosaic Idealize.ShloMosaic.ValueIdx

variable [Cert.Pre_finite_inputs.Facts]

/-- The rank-0 shape has exactly one index. -/
private instance subsingleton_idx0 : Subsingleton Cert.Pre_finite_inputs.S_.Idx :=
  ⟨fun a b => funext fun d => d.elim0⟩

/-- An extended real whose absolute value max(y, −y) is strictly below +∞ is a real number: y = +∞ gives
    max(⊤, ⊥) = ⊤ and y = −∞ gives max(⊥, ⊤) = ⊤, neither below ⊤. The word 0x7F800000 denotes +∞. -/
private theorem real_of_abs_lt_inf (y : EReal)
    (h : Ideal.cmp .olt (max y (-y)) (Ideal.ofBits .f32 0x7F800000#32) = 1#1) : ∃ r : ℝ, y = (r : EReal) := by
  have htop : Ideal.ofBits .f32 0x7F800000#32 = (⊤ : EReal) := by simp [Ideal.ofBits, Ideal.ieee]
  rw [htop] at h
  induction y using EReal.rec with
  | bot => exact absurd h (by simp [Ideal.cmp])
  | coe r => exact ⟨r, rfl⟩
  | top => exact absurd h (by simp [Ideal.cmp])

theorem pre_facts (x : FVec Ideal SX .f32) (idx : IVec SI 32) (v : FVec Ideal SV .f32) (α : FVec Ideal S0 .f32)
    (h : Cert.Pre_finite_inputs.fn (F := Ideal) x idx v α = fun _ => 1#1) :
    (∀ i, ∃ r : ℝ, x i = (r : EReal)) ∧ (∀ k, ∃ r : ℝ, v k = (r : EReal)) ∧ (∃ r : ℝ, α ix0 = (r : EReal))
      ∧ (∀ (a : Fin 2) (k : Fin 419430), 0 ≤ (idx (ix2 a k)).toInt ∧ (idx (ix2 a k)).toInt < 2048) := by
  have h0 := congrFun h ValueIdx.ix0
  dsimp only [Cert.Pre_finite_inputs.fn, Cert.Pre_finite_inputs.fn_part1] at h0
  -- the predicate is a conjunction of four words, each a reduction by "and" over a whole array
  dsimp only [andi] at h0
  obtain ⟨h123, h4⟩ := IntOp.andi_eq_one.1 h0
  obtain ⟨h12, h3⟩ := IntOp.andi_eq_one.1 h123
  obtain ⟨h1, h2⟩ := IntOp.andi_eq_one.1 h12
  have hx := Host.reduce_andi_all _ _ _ _ _ h1
  have hv := Host.reduce_andi_all _ _ _ _ _ h2
  have hα := Host.reduce_andi_all _ _ _ _ _ h3
  have hi := Host.reduce_andi_all _ _ _ _ _ h4
  refine ⟨fun i => real_of_abs_lt_inf (x i) (hx i), fun k => real_of_abs_lt_inf (v k) (hv k),
    real_of_abs_lt_inf (α ix0) (hα ix0), fun a k => ?_⟩
  -- at one index the two signed comparisons are against the words 0 and 2048
  obtain ⟨hge, hlt⟩ := IntOp.andi_eq_one.1 (hi (ix2 a k))
  have hge' : (0#32 : BitVec 32).toInt ≤ (idx (ix2 a k)).toInt := IntOp.cmpi_sge.1 hge
  have hlt' : (idx (ix2 a k)).toInt < (2048#32 : BitVec 32).toInt := IntOp.cmpi_slt.1 hlt
  have e0 : (0#32 : BitVec 32).toInt = 0 := by decide
  have e1 : (2048#32 : BitVec 32).toInt = 2048 := by decide
  rw [e0] at hge'
  rw [e1] at hlt'
  exact ⟨hge', hlt'⟩

end Cert.Lateral

end
-- ==== Proof.ScatterAt.lean ====
/-
  A scatter whose every update is one element and whose start index is read whole off the index array (all operand axes
  inserted, no window axes): update `k` lands at operand index `i` exactly when the start words of `k`, read signed,
  are the coordinates of `i`. Out-of-range words land nowhere.
-/
import Idealize.ShloMosaic.PureOps.Ideal
import Idealize.ShloMosaic.Lib.ValueIdx

noncomputable section

namespace Cert.Lateral

open Idealize.ShloMosaic Idealize.ShloMosaic.ValueIdx

/-- On an inserted window axis the window coordinate is zero: the axis is not among the kept ones. -/
private theorem window_inserted {s si u : Shape} (d : ScatterDims s si u) (j : u.Idx) (a : Fin s.rank)
    (ha : a ∈ d.insertedWindowDims) : d.window j a = 0 := by
  unfold ScatterDims.window
  rw [dif_neg]
  intro hk
  have := (List.mem_filter.1 hk).2
  simp [ha] at this

/-- One operand axis, one start word per update. -/
theorem resultIdx_one {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (idx : IVec ⟨2, ![M, 1]⟩ w) (k : (⟨1, ![M]⟩ : Shape).Idx) (i : (⟨1, ![N]⟩ : Shape).Idx) :
    d.resultIdx? k idx = some i ↔ (idx (ix2 (k 0) (0 : Fin 1))).toInt = ((i 0).val : Int) := by
  -- the window coordinate vanishes on the one axis
  have hw : ∀ a, d.window k a = 0 := fun a => window_inserted d k a (by
    rw [h2]; obtain rfl : a = 0 := Subsingleton.elim _ _; exact List.mem_singleton.mpr rfl)
  -- the start on the one axis is the word at `(k 0, 0)`
  have hs : d.start k idx 0 = (idx (ix2 (k 0) (0 : Fin 1))).toInt := by
    obtain ⟨uw, iw, sd, iv, wf⟩ := d
    simp only at h1 h2 h3 h4
    subst h1 h2 h3 h4
    unfold ScatterDims.start
    rw [dif_pos (List.mem_singleton.mpr rfl)]
    congr 2
    funext b
    refine Fin.ext ?_
    match b with
    | ⟨0, _⟩ =>
      unfold ScatterDims.siIdx
      rw [dif_neg (show ¬ ((0 : Nat) = 1) from Nat.zero_ne_one)]
      unfold ScatterDims.siCoord
      show (k _).val = (k 0).val
      exact congrArg (fun x => (k x).val) (Subsingleton.elim _ _)
    | ⟨1, _⟩ =>
      unfold ScatterDims.siIdx
      rw [dif_pos rfl]
      rfl
  have hi : ((i 0).val : Int) < ((⟨1, ![N]⟩ : Shape).size 0 : Int) := Int.ofNat_lt.2 (i 0).isLt
  unfold ScatterDims.resultIdx?
  split
  · rename_i h
    rw [Option.some.injEq]
    constructor
    · intro e
      have e0 : (d.start k idx 0 + (d.window k 0 : Int)).toNat = (i 0).val := congrArg Fin.val (congrFun e 0)
      have h0 := (h 0).1
      rw [hw 0, hs] at e0 h0
      omega
    · intro e
      funext a
      obtain rfl : a = 0 := Subsingleton.elim _ _
      refine Fin.ext ?_
      show (d.start k idx 0 + (d.window k 0 : Int)).toNat = (i 0).val
      rw [hw 0, hs, e]
      omega
  · rename_i h
    constructor
    · intro e; cases e
    · intro e
      refine absurd (fun a => ?_) h
      obtain rfl : a = 0 := Subsingleton.elim _ _
      rw [hw 0, hs, e]
      constructor
      · omega
      · omega

/-- Two operand axes, two start words per update. -/
theorem resultIdx_two {N0 N1 M w : Nat} (d : ScatterDims ⟨2, ![N0, N1]⟩ ⟨2, ![M, 2]⟩ ⟨1, ![M]⟩)
    (h1 : d.updateWindowDims = []) (h2 : d.insertedWindowDims = [0, 1]) (h3 : d.scatterDimsToOperandDims = [0, 1])
    (h4 : d.indexVectorDim = 1)
    (idx : IVec ⟨2, ![M, 2]⟩ w) (k : (⟨1, ![M]⟩ : Shape).Idx) (i : (⟨2, ![N0, N1]⟩ : Shape).Idx) :
    d.resultIdx? k idx = some i ↔
      (idx (ix2 (k 0) (0 : Fin 2))).toInt = ((i 0).val : Int) ∧ (idx (ix2 (k 0) (1 : Fin 2))).toInt = ((i 1).val : Int) := by
  -- the window coordinate vanishes on both axes
  have hw : ∀ a, d.window k a = 0 := fun a => window_inserted d k a (by
    rw [h2]
    match a with
    | ⟨0, _⟩ => exact List.mem_cons_self
    | ⟨1, _⟩ => exact List.mem_cons_of_mem _ (List.mem_singleton.mpr rfl))
  -- the start on axis `a` is the word at `(k 0, a)`
  have hs : ∀ a : Fin 2, d.start k idx a = (idx (ix2 (k 0) a)).toInt := by
    obtain ⟨uw, iw, sd, iv, wf⟩ := d
    simp only at h1 h2 h3 h4
    subst h1 h2 h3 h4
    intro a
    have ha : a ∈ ([0, 1] : List (Fin 2)) := by
      match a with
      | ⟨0, _⟩ => exact List.mem_cons_self
      | ⟨1, _⟩ => exact List.mem_cons_of_mem _ (List.mem_singleton.mpr rfl)
    unfold ScatterDims.start
    rw [dif_pos ha]
    congr 2
    funext b
    refine Fin.ext ?_
    match b with
    | ⟨0, _⟩ =>
      unfold ScatterDims.siIdx
      rw [dif_neg (show ¬ ((0 : Nat) = 1) from Nat.zero_ne_one)]
      unfold ScatterDims.siCoord
      show (k _).val = (k 0).val
      exact congrArg (fun x => (k x).val) (Subsingleton.elim _ _)
    | ⟨1, _⟩ =>
      unfold ScatterDims.siIdx
      rw [dif_pos rfl]
      match a with
      | ⟨0, _⟩ => rfl
      | ⟨1, _⟩ => rfl
  have hi0 : ((i 0).val : Int) < ((⟨2, ![N0, N1]⟩ : Shape).size 0 : Int) := Int.ofNat_lt.2 (i 0).isLt
  have hi1 : ((i 1).val : Int) < ((⟨2, ![N0, N1]⟩ : Shape).size 1 : Int) := Int.ofNat_lt.2 (i 1).isLt
  unfold ScatterDims.resultIdx?
  split
  · rename_i h
    rw [Option.some.injEq]
    constructor
    · intro e
      have e0 : (d.start k idx 0 + (d.window k 0 : Int)).toNat = (i 0).val := congrArg Fin.val (congrFun e 0)
      have e1 : (d.start k idx 1 + (d.window k 1 : Int)).toNat = (i 1).val := congrArg Fin.val (congrFun e 1)
      have h0 := (h 0).1
      have h1' := (h 1).1
      rw [hw 0, hs 0] at e0 h0
      rw [hw 1, hs 1] at e1 h1'
      constructor
      · omega
      · omega
    · rintro ⟨e0, e1⟩
      funext a
      refine Fin.ext ?_
      match a with
      | ⟨0, _⟩ =>
        show (d.start k idx 0 + (d.window k 0 : Int)).toNat = (i 0).val
        rw [hw 0, hs 0, e0]
        omega
      | ⟨1, _⟩ =>
        show (d.start k idx 1 + (d.window k 1 : Int)).toNat = (i 1).val
        rw [hw 1, hs 1, e1]
        omega
  · rename_i h
    constructor
    · intro e; cases e
    · rintro ⟨e0, e1⟩
      refine absurd (fun a => ?_) h
      match a with
      | ⟨0, _⟩ =>
        show 0 ≤ d.start k idx 0 + (d.window k 0 : Int) ∧
          d.start k idx 0 + (d.window k 0 : Int) < ((⟨2, ![N0, N1]⟩ : Shape).size 0 : Int)
        rw [hw 0, hs 0, e0]
        constructor
        · omega
        · omega
      | ⟨1, _⟩ =>
        show 0 ≤ d.start k idx 1 + (d.window k 1 : Int) ∧
          d.start k idx 1 + (d.window k 1 : Int) < ((⟨2, ![N0, N1]⟩ : Shape).size 1 : Int)
        rw [hw 1, hs 1, e1]
        constructor
        · omega
        · omega

end Cert.Lateral

end
-- ==== Proof.RefValue.lean ====
/-
  The reference's result, read one operation at a time, is the specification's array: with every index word in range the
  two sign normalisations do nothing, the scatter lands connection k at (row word, column word), the contraction runs over
  the matrix's second axis, and the scale multiplies the product.
-/
import proofs.«405993_j69458211111443_2_alg».proof.Proof.Gen.ReferenceIdeal.Read
import proofs.«405993_j69458211111443_2_alg».proof.Proof.Spec
import proofs.«405993_j69458211111443_2_alg».proof.Proof.ScatterAt

noncomputable section

namespace Cert.Lateral

open Idealize.ShloMosaic Idealize.ShloMosaic.ValueIdx Cert.ReferenceIdeal

/-- A word that reads non-negative is left alone by the sign normalisation: the signed compare with zero is false,
    so the select returns the word itself. -/
private theorem norm_word (w : BitVec 32) (h : 0 ≤ w.toInt) :
    Scalar.select (IntOp.cmpi .slt w 0#32) (IntOp.addi w 2048#32) w = w := by
  have hs : w.slt 0#32 = false := by
    have hn : ¬ (w.toInt < (0#32).toInt) := by rw [BitVec.toInt_zero]; omega
    exact decide_eq_false hn
  have hc : IntOp.cmpi .slt w 0#32 = 0#1 := by
    show BitVec.ofBool (w.slt 0#32) = 0#1
    rw [hs]; rfl
  rw [hc, select_zero]

/-- The normalised row word of connection `k` is the index array's word at (0, k). -/
private theorem v9_at (idx : IVec SI 32)
    (hr : ∀ (a : Fin 2) (k : Fin 419430), 0 ≤ (idx (ix2 a k)).toInt ∧ (idx (ix2 a k)).toInt < 2048)
    (k : S419430.Idx) : Read.val_main_v9 (F := Ideal) idx k = idx (ix2 (0 : Fin 2) (k 0)) := by
  have e2 : Read.val_main_v2 (F := Ideal) idx k = idx (ix2 (0 : Fin 2) (k 0)) := by
    rw [Read.val_main_v2_apply, Read.val_main_v1_apply]
    congr 1
    funext a
    match a with
    | ⟨0, _⟩ => rfl
    | ⟨1, _⟩ => exact Fin.ext (Nat.mod_eq_of_lt (k 0).isLt)
  rw [Read.val_main_v9_apply, Read.val_main_v6_apply, Read.val_main_v8_apply, Read.val_main_v5_apply, Read.val_main_v7_apply,
    Read.val_main_c_apply, Read.val_main_c_0_apply, e2]
  exact norm_word _ (hr 0 (k 0)).1

/-- The normalised column word of connection `k` is the index array's word at (1, k). -/
private theorem v14_at (idx : IVec SI 32)
    (hr : ∀ (a : Fin 2) (k : Fin 419430), 0 ≤ (idx (ix2 a k)).toInt ∧ (idx (ix2 a k)).toInt < 2048)
    (k : S419430.Idx) : Read.val_main_v14 (F := Ideal) idx k = idx (ix2 (1 : Fin 2) (k 0)) := by
  have e4 : Read.val_main_v4 (F := Ideal) idx k = idx (ix2 (1 : Fin 2) (k 0)) := by
    rw [Read.val_main_v4_apply, Read.val_main_v3_apply]
    congr 1
    funext a
    match a with
    | ⟨0, _⟩ => rfl
    | ⟨1, _⟩ => exact Fin.ext (Nat.mod_eq_of_lt (k 0).isLt)
  rw [Read.val_main_v14_apply, Read.val_main_v11_apply, Read.val_main_v13_apply, Read.val_main_v10_apply, Read.val_main_v12_apply,
    Read.val_main_c_1_apply, Read.val_main_c_2_apply, e4]
  exact norm_word _ (hr 1 (k 0)).1

/-- Column 0 of the start-index array holds the row words. -/
private theorem v17_at0 (idx : IVec SI 32)
    (hr : ∀ (a : Fin 2) (k : Fin 419430), 0 ≤ (idx (ix2 a k)).toInt ∧ (idx (ix2 a k)).toInt < 2048)
    (k : Fin 419430) :
    Read.val_main_v17 (F := Ideal) idx (ix2 k (0 : Fin 2)) = idx (ix2 (0 : Fin 2) k) := by
  unfold Read.val_main_v17
  rw [concatenate_pair_apply_left (t := S419430x2) (s₁ := S419430x1) (s₂ := S419430x1) (1 : Fin S419430x2.rank)
    (Read.val_main_v15 (F := Ideal) idx) (Read.val_main_v16 (F := Ideal) idx) _ (ix2 k (0 : Fin 2)) rfl (ix2 k (0 : Fin 1))
    (fun b => by match b with
      | ⟨0, _⟩ => rfl
      | ⟨1, _⟩ => rfl)]
  rw [Read.val_main_v15_apply, v9_at idx hr]
  rfl

/-- Column 1 of the start-index array holds the column words. -/
private theorem v17_at1 (idx : IVec SI 32)
    (hr : ∀ (a : Fin 2) (k : Fin 419430), 0 ≤ (idx (ix2 a k)).toInt ∧ (idx (ix2 a k)).toInt < 2048)
    (k : Fin 419430) :
    Read.val_main_v17 (F := Ideal) idx (ix2 k (1 : Fin 2)) = idx (ix2 (1 : Fin 2) k) := by
  unfold Read.val_main_v17
  rw [concatenate_pair_apply_right (t := S419430x2) (s₁ := S419430x1) (s₂ := S419430x1) (1 : Fin S419430x2.rank)
    (Read.val_main_v15 (F := Ideal) idx) (Read.val_main_v16 (F := Ideal) idx) _ (ix2 k (1 : Fin 2)) rfl rfl (ix2 k (0 : Fin 1))
    (fun b hb => by match b with
      | ⟨0, _⟩ => rfl
      | ⟨1, _⟩ => exact absurd rfl hb)
    rfl]
  rw [Read.val_main_v16_apply, v14_at idx hr]
  rfl

/-- The scattered matrix is the dense matrix of the specification: the operand is zero, and update `k` lands at (p, q)
    exactly when its two start words read (p, q). -/
private theorem v18_at (idx : IVec SI 32) (v : FVec Ideal SV .f32)
    (hr : ∀ (a : Fin 2) (k : Fin 419430), 0 ≤ (idx (ix2 a k)).toInt ∧ (idx (ix2 a k)).toInt < 2048)
    (p q : Fin 2048) :
    Read.val_main_v18 (F := Ideal) idx v (ix2 p q) = dense idx v p q := by
  have h0 : Read.val_main_v0 (F := Ideal) (ix2 p q) = 0 := by
    rw [Read.val_main_v0_apply]; exact Ideal.ofBits_zero_f32
  unfold Read.val_main_v18 Host.scatterAdd
  rw [Ideal.hostScatterAdd_def]
  unfold Ideal.hostScatterAdd
  rw [h0, zero_add]
  unfold dense connSet rowOf colOf
  refine Finset.sum_congr (Finset.filter_congr fun k _ => ?_) fun _ _ => rfl
  have e0 := congrArg BitVec.toInt (v17_at0 idx hr (k 0))
  have e1 := congrArg BitVec.toInt (v17_at1 idx hr (k 0))
  refine (resultIdx_two scatter_S2048x2048_S419430x2_S419430_n_01_01_1 rfl rfl rfl rfl
    (Read.val_main_v17 (F := Ideal) idx) k (ix2 p q)).trans ?_
  exact ⟨fun h => ⟨e0.symm.trans h.1, e1.symm.trans h.2⟩, fun h => ⟨e0.trans h.1, e1.trans h.2⟩⟩

theorem ref_eq_G (x : FVec Ideal SX .f32) (idx : IVec SI 32) (v : FVec Ideal SV .f32) (α : FVec Ideal S0 .f32)
    (hr : ∀ (a : Fin 2) (k : Fin 419430), 0 ≤ (idx (ix2 a k)).toInt ∧ (idx (ix2 a k)).toInt < 2048) :
    Cert.ReferenceIdeal.Read.val_main_v22 (F := Ideal) x idx v α = G x idx v α := by
  funext i
  obtain ⟨b, s, c, rfl⟩ : ∃ (b : Fin 4) (s c : Fin 2048), i = ix3 b s c := ⟨i 0, i 1, i 2, eq_ix3 i⟩
  have el : ∀ k : Fin 2048, Read.lidx_main_v19 (ix3 b s c) k = ix3 b s k := fun k => funext fun a => Fin.ext (by
    match a with
    | ⟨0, _⟩ => rfl
    | ⟨1, _⟩ => rfl
    | ⟨2, _⟩ => rfl)
  have er : ∀ k : Fin 2048, Read.ridx_main_v19 (ix3 b s c) k = ix2 c k := fun k => funext fun a => Fin.ext (by
    match a with
    | ⟨0, _⟩ => rfl
    | ⟨1, _⟩ => rfl)
  rw [Read.val_main_v22_apply, Read.val_main_v21_apply, Read.val_main_v20_apply, Read.val_main_v19_apply]
  simp only [el, er, v18_at idx v hr]
  rfl

end Cert.Lateral

end
-- ==== Proof.KernelBody.lean ====
/-
  The kernel body at one element. The body loads a 512 × 2048 block of x and the whole 2048 × 2048 matrix M, rounds the
  block (the identity on extended reals), multiplies into a zero accumulator and adds the block back:
      pay[p, q] = x[p, q] + ∑_k x[p, k] · M[k, q].
  The contraction runs over the block's second axis and the matrix's FIRST axis.
-/
import proofs.«405993_j69458211111443_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Lateral.Body

open Idealize.ShloMosaic Idealize.ShloMosaic.ValueIdx Cert.KernelIdeal Cert.KernelIdeal.Gen

variable [Cert.KernelIdeal.Facts]

/-- Left operand, row axis: the output's row. -/
theorem lhs_0 (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- Left operand, column axis: the contracted coordinate. -/
theorem lhs_1 (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
/-- Right operand, row axis: the contracted coordinate. -/
theorem rhs_0 (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
/-- Right operand, column axis: the output's column. -/
theorem rhs_1 (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into the zero accumulator at (p, q): the sum over k of block[p, k] · matrix[k, q]. -/
theorem matmul_at (a : FVec Ideal S512x2048 .bf16) (w : FVec Ideal S2048x2048 .bf16) (p : Fin 512) (q : Fin 2048) :
    matmul dot_S512x2048_S2048x2048_S512x2048_1_0_0_1_n_n none a w (constant S512x2048 .f32 0x00000000#32) (ix2 p q)
      = ∑ k : Fin 2048, a (ix2 p k) * w (ix2 k q) := by
  show FloatOps.matmul dot_S512x2048_S2048x2048_S512x2048_1_0_0_1_n_n none a w (constant S512x2048 .f32 0x00000000#32) (ix2 p q) = _
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p q) ((ValueIdx.contrEquiv1 dot_S512x2048_S2048x2048_S512x2048_1_0_0_1_n_n 2048 rfl rfl).symm k) = ix2 p k := funext fun b => Fin.ext (by
    match b with
    | ⟨0, _⟩ => exact lhs_0 _ _
    | ⟨1, _⟩ => exact (lhs_1 _ _).trans hk)
  have er : dot_S512x2048_S2048x2048_S512x2048_1_0_0_1_n_n.rhsIdx (ix2 p q) ((ValueIdx.contrEquiv1 dot_S512x2048_S2048x2048_S512x2048_1_0_0_1_n_n 2048 rfl rfl).symm k) = ix2 k q := funext fun b => Fin.ext (by
    match b with
    | ⟨0, _⟩ => exact (rhs_0 _ _).trans hk
    | ⟨1, _⟩ => exact rhs_1 _ _)
  rw [el, er]

/-- The stored value at (p, q). -/
theorem pay_at (x0 : Vec Ideal S512x2048 .f32) (x1 : Vec Ideal S2048x2048 .bf16) (p : Fin 512) (q : Fin 2048) :
    k0_pay1 (F := Ideal) x0 x1 (ix2 p q) = x0 (ix2 p q) + ∑ k : Fin 2048, x0 (ix2 p k) * x1 (ix2 k q) := by
  unfold k0_pay1
  rw [shapeCast_self, shapeCast_self, addf_apply, matmul_at]
  rfl

end Cert.Lateral.Body

end
-- ==== Proof.KernelHost.lean ====
/-
  What the host lines before the region leave in the two arrays the region reads.

  The flat word of connection k is  c(k) · 2048 + r(k)  (column word times the row length, plus the row word), wrapped by
  + 2048² only if negative; the values are scaled by α; the scaled values are scatter-added at their flat words into a zero
  vector of 2048² entries, which is then read as a 2048 × 2048 matrix M and rounded (the identity on extended reals):
      M[j, i] = ∑ { v(k) · α : c(k) · 2048 + r(k) = j · 2048 + i }.
  With every word in [0, 2048) the flat word neither overflows nor is negative, and  c · 2048 + r = j · 2048 + i  holds
  exactly when c = j and r = i: M[j, i] sums the connections naming entry (i, j) of the dense matrix — its transpose.
  The other array is x read as 8192 rows of 2048.
-/
import proofs.«405993_j69458211111443_2_alg».proof.Proof.Gen.KernelIdeal.Frame
import proofs.«405993_j69458211111443_2_alg».proof.Proof.Spec
import proofs.«405993_j69458211111443_2_alg».proof.Proof.ScatterAt
import Idealize.ShloMosaic.Lib.StableHlo.Run
import Idealize.ShloMosaic.Lib.Pipeline.Value

noncomputable section

open scoped BigOperators

namespace Cert.Lateral.Host

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-- Row words and column words of the connection list, as vectors. -/
def rowW (idx : IVec S2x419430 32) : IVec S419430 32 :=
  shapeCast S419430 (extractStridedSlice S1x419430 ![0, 0] idx slices_S2x419430_S1x419430_0_0) shapeCasts_S1x419430_S419430
def colW (idx : IVec S2x419430 32) : IVec S419430 32 :=
  shapeCast S419430 (extractStridedSlice S1x419430 ![1, 0] idx slices_S2x419430_S1x419430_1_0) shapeCasts_S1x419430_S419430

/-- The flat word: column word times 2048 plus row word, in 32-bit arithmetic. -/
def flatW (idx : IVec S2x419430 32) : IVec S419430 32 :=
  addi (muli (colW idx) (broadcastInDim S419430 ![] bcast_S_S419430 (constantI S_ 32 2048#32))) (rowW idx)

/-- The flat word with a negative one wrapped by 2048². -/
def normW (idx : IVec S2x419430 32) : IVec S419430 32 :=
  select (cmpi .slt (flatW idx) (broadcastInDim S419430 ![] bcast_S_S419430 (constantI S_ 32 0#32)))
    (addi (flatW idx) (broadcastInDim S419430 ![] bcast_S_S419430 (constantI S_ 32 4194304#32))) (flatW idx)

/-- The scaled values scatter-added at their flat words into a zero vector. -/
def flatM (idx : IVec S2x419430 32) (v : FVec F S419430 .f32) (α : FVec F S_ .f32) : FVec F S4194304 .f32 :=
  Host.scatterAdd scatter_S4194304_S419430x1_S419430_n_0_0_1
    (broadcastInDim S4194304 ![] bcast_S_S4194304 (constant S_ .f32 0x00000000#32))
    (broadcastInDim S419430x1 ![0] bcast_S419430_S419430x1_0 (normW idx))
    (mulf v (broadcastInDim S419430 ![] bcast_S_S419430 α))

/-- The matrix the region reads: the flat vector as 2048 rows of 2048, rounded. -/
def matM (idx : IVec S2x419430 32) (v : FVec F S419430 .f32) (α : FVec F S_ .f32) : FVec F S2048x2048 .bf16 :=
  truncf .bf16 (shapeCast S2048x2048 (flatM idx v α) shapeCasts_S4194304_S2048x2048) bitsLt_bf16_f32

/-- x as 8192 rows of 2048. -/
def rowsX (x : FVec F S4x2048x2048 .f32) : FVec F S8192x2048 .f32 :=
  shapeCast S8192x2048 x shapeCasts_S4x2048x2048_S8192x2048

variable (m : (ℓ : Loc nD τ sig) → Buf (Elt F) ℓ)

/-- The region finds x, as rows, in its first window's array. -/
theorem V_rows (c : Dev nD) :
    (V m c main_v19 : S8192x2048.Idx → F .f32) = rowsX (m ((c : Thread nD τ).loc main_arg0)) := by
  show StableHlo.after hostOps0 (fun b => m (c, b)) (Proc.devRef .tc main_v19) = _
  after_results
  rfl

set_option maxHeartbeats 2000000 in
/-- The region finds the matrix in its second window's array. -/
theorem V_mat (c : Dev nD) :
    (V m c main_v18 : S2048x2048.Idx → F .bf16) =
      matM (m ((c : Thread nD τ).loc main_arg1)) (m ((c : Thread nD τ).loc main_arg2)) (m ((c : Thread nD τ).loc main_arg3)) := by
  show StableHlo.after hostOps0 (fun b => m (c, b)) (Proc.devRef .tc main_v18) = _
  after_results
  rfl

end Cert.Lateral.Host

end
-- ==== Proof.KernelMat.lean ====
/-
  The matrix the region reads, at one entry, and x-as-rows at one entry.

  With every index word in [0, 2048): the flat word of connection k is c(k) · 2048 + r(k) computed without overflow and
  is non-negative, so the wrap leaves it alone; it equals j · 2048 + i exactly when c(k) = j and r(k) = i (both r(k) and i
  are below 2048: the quotient and remainder by 2048 are unique). Hence
      M[j, i] = ∑ { v(k) · α : r(k) = i, c(k) = j },
  the scaled sum over the connections naming entry (i, j) of the dense matrix. Row R of x-as-rows is x[R / 2048, R % 2048, ·].
-/
import proofs.«405993_j69458211111443_2_alg».proof.Proof.KernelHost
import Idealize.ShloMosaic.Lib.StableHlo.Predicate
import Idealize.ShloMosaic.PureOps.Ideal.Laws

noncomputable section

open scoped BigOperators

namespace Cert.Lateral.Host

open Idealize.ShloMosaic Idealize.ShloMosaic.ValueIdx Cert.KernelIdeal Cert.KernelIdeal.Gen

/-- The row word of connection k. -/
theorem rowW_at (idx : IVec S2x419430 32) (k : Fin 419430) : rowW idx (ix1 k) = idx (ix2 (0 : Fin 2) k) := by
  unfold rowW
  rw [shapeCast_apply _ shapeCasts_S1x419430_S419430 (ix1 k) (ix2 (0 : Fin 1) k)
    (by rewrite [Shape.rowMajor_val_two, Shape.rowMajor_val_one]; show 0 * 419430 + k.val = k.val; omega)]
  exact extractStridedSlice_apply ![0, 0] idx slices_S2x419430_S1x419430_0_0 (ix2 (0 : Fin 1) k) (ix2 (0 : Fin 2) k) (fun a => match a with
    | ⟨0, _⟩ => by show (0 : Nat) = 0 + 0; omega
    | ⟨1, _⟩ => by show k.val = 0 + k.val; omega)

/-- The column word of connection k. -/
theorem colW_at (idx : IVec S2x419430 32) (k : Fin 419430) : colW idx (ix1 k) = idx (ix2 (1 : Fin 2) k) := by
  unfold colW
  rw [shapeCast_apply _ shapeCasts_S1x419430_S419430 (ix1 k) (ix2 (0 : Fin 1) k)
    (by rewrite [Shape.rowMajor_val_two, Shape.rowMajor_val_one]; show 0 * 419430 + k.val = k.val; omega)]
  exact extractStridedSlice_apply ![1, 0] idx slices_S2x419430_S1x419430_1_0 (ix2 (0 : Fin 1) k) (ix2 (1 : Fin 2) k) (fun a => match a with
    | ⟨0, _⟩ => by show (1 : Nat) = 1 + 0; omega
    | ⟨1, _⟩ => by show k.val = 0 + k.val; omega)

/-- A word that reads signed in [0, 2048) reads unsigned as the same number. -/
theorem toNat_of_range (w : BitVec 32) (h0 : 0 ≤ w.toInt) (h1 : w.toInt < 2048) : w.toNat < 2048 ∧ w.toInt = (w.toNat : Int) := by
  have hlt : w.toNat < 2 ^ 32 := w.isLt
  rw [BitVec.toInt_eq_toNat_cond] at h0 h1 ⊢
  split at h0 <;> rename_i hc
  · rw [if_pos hc] at h1 ⊢
    exact ⟨by omega, rfl⟩
  · rw [if_neg hc] at h1
    omega

/-- Two words in [0, 2048): their flat word c · 2048 + r, in 32-bit arithmetic, reads signed as that number. -/
theorem flat_toInt (r c : BitVec 32) (hr0 : 0 ≤ r.toInt) (hr1 : r.toInt < 2048) (hc0 : 0 ≤ c.toInt) (hc1 : c.toInt < 2048) :
    (c * 2048#32 + r).toInt = c.toInt * 2048 + r.toInt := by
  obtain ⟨hrn, hre⟩ := toNat_of_range r hr0 hr1
  obtain ⟨hcn, hce⟩ := toNat_of_range c hc0 hc1
  have hn : (c * 2048#32 + r).toNat = c.toNat * 2048 + r.toNat := by
    rw [BitVec.toNat_add, BitVec.toNat_mul]
    show (c.toNat * 2048 % 2 ^ 32 + r.toNat) % 2 ^ 32 = _
    rw [Nat.mod_eq_of_lt (by omega), Nat.mod_eq_of_lt (by omega)]
  rw [StableHlo.Predicate.toInt_eq_toNat_of_lt (by rw [hn]; omega), hn, hre, hce]
  push_cast
  ring

/-- The wrapped flat word of connection k, read signed, is c(k) · 2048 + r(k). -/
theorem normW_toInt (idx : IVec S2x419430 32)
    (hr : ∀ (a : Fin 2) (k : Fin 419430), 0 ≤ (idx (ix2 a k)).toInt ∧ (idx (ix2 a k)).toInt < 2048) (k : Fin 419430) :
    (normW idx (ix1 k)).toInt = (idx (ix2 (1 : Fin 2) k)).toInt * 2048 + (idx (ix2 (0 : Fin 2) k)).toInt := by
  have hf : flatW idx (ix1 k) = idx (ix2 (1 : Fin 2) k) * 2048#32 + idx (ix2 (0 : Fin 2) k) := by
    show IntOp.addi (IntOp.muli (colW idx (ix1 k)) 2048#32) (rowW idx (ix1 k)) = _
    rw [rowW_at, colW_at]; rfl
  have ht := flat_toInt _ _ (hr 0 k).1 (hr 0 k).2 (hr 1 k).1 (hr 1 k).2
  have hn : ¬ (IntOp.cmpi .slt (flatW idx (ix1 k)) 0#32 = 1#1) := by
    rw [IntOp.cmpi_slt, hf, ht, BitVec.toInt_zero]
    have := (hr 0 k).1; have := (hr 1 k).1; omega
  show (Scalar.select (IntOp.cmpi .slt (flatW idx (ix1 k)) 0#32) (IntOp.addi (flatW idx (ix1 k)) 4194304#32) (flatW idx (ix1 k))).toInt = _
  rw [eq_zero_of_ne_one hn, select_zero, hf, ht]

/-- Entry (j, i) of the matrix the region reads. -/
theorem matM_at (idx : IVec S2x419430 32) (v : FVec Ideal S419430 .f32) (α : FVec Ideal S_ .f32)
    (hr : ∀ (a : Fin 2) (k : Fin 419430), 0 ≤ (idx (ix2 a k)).toInt ∧ (idx (ix2 a k)).toInt < 2048) (j i : Fin 2048) :
    matM (F := Ideal) idx v α (ix2 j i) = ∑ k ∈ connSet idx i j, v k * α ix0 := by
  have hp : j.val * 2048 + i.val < 4194304 := by have := j.isLt; have := i.isLt; omega
  unfold matM
  rw [truncf_apply, shapeCast_apply _ shapeCasts_S4194304_S2048x2048 (ix2 j i) (ix1 (⟨j.val * 2048 + i.val, hp⟩ : Fin 4194304))
    (by rewrite [Shape.rowMajor_val_two, Shape.rowMajor_val_one]; rfl)]
  unfold flatM Host.scatterAdd
  rw [Ideal.hostScatterAdd_def]
  unfold Ideal.hostScatterAdd
  have h0 : broadcastInDim S4194304 ![] bcast_S_S4194304 (constant (F := Ideal) S_ .f32 0x00000000#32)
      (ix1 (⟨j.val * 2048 + i.val, hp⟩ : Fin 4194304)) = 0 := Ideal.ofBits_zero_f32
  rw [h0, zero_add]
  unfold connSet rowOf colOf
  refine Finset.sum_congr (Finset.filter_congr fun k _ => ?_) fun k _ => by
    show v k * α _ = v k * α ix0
    exact congrArg (fun z => v k * α z) (eq_ix0 _)
  obtain ⟨k0, rfl⟩ : ∃ k0 : Fin 419430, k = ix1 k0 := ⟨k 0, eq_ix1 k⟩
  refine (resultIdx_one scatter_S4194304_S419430x1_S419430_n_0_0_1 rfl rfl rfl rfl _ (ix1 k0) _).trans ?_
  have hb : broadcastInDim S419430x1 ![0] bcast_S419430_S419430x1_0 (normW idx) (ix2 k0 (0 : Fin 1)) = normW idx (ix1 k0) :=
    broadcastInDim_apply _ bcast_S419430_S419430x1_0 (normW idx) (ix2 k0 (0 : Fin 1)) (ix1 k0) (fun a => match a with
      | ⟨0, _⟩ => by show k0.val = if (419430 : Nat) = 1 then 0 else k0.val; rw [if_neg (by decide)])
  show (broadcastInDim S419430x1 ![0] bcast_S419430_S419430x1_0 (normW idx) (ix2 k0 (0 : Fin 1))).toInt = ((j.val * 2048 + i.val : Nat) : Int) ↔ _
  rw [hb, normW_toInt idx hr k0]
  have := hr 0 k0; have := hr 1 k0; have := j.isLt; have := i.isLt
  show _ ↔ (idx (ix2 (0 : Fin 2) k0)).toInt = (i.val : Int) ∧ (idx (ix2 (1 : Fin 2) k0)).toInt = (j.val : Int)
  omega

/-- Row R of x-as-rows is row (R / 2048, R % 2048) of x. -/
theorem rowsX_at {F : FTy → Type} [FloatOps F] (x : FVec F S4x2048x2048 .f32) (b : Fin 4) (s q : Fin 2048) (R : Fin 8192)
    (hR : R.val = b.val * 2048 + s.val) : rowsX x (ix2 R q) = x (ix3 b s q) := by
  unfold rowsX
  exact shapeCast_apply x shapeCasts_S4x2048x2048_S8192x2048 (ix2 R q) (ix3 b s q)
    (by rewrite [Shape.rowMajor_val_three, Shape.rowMajor_val_two]; show (b.val * 2048 + s.val) * 2048 + q.val = R.val * 2048 + q.val; rw [hR])

end Cert.Lateral.Host

end
-- ==== Proof.KernelArray.lean ====
/-
  From the region's blocks to the program's result.

  The region has 16 points; point t reads rows [512 t, 512 t + 512) of X (x as 8192 rows) and the whole matrix M, and
  writes back rows [512 t, 512 t + 512) of
      out[R, q] = X[R, q] + ∑_k X[R, k] · M[k, q].
  Every row R lies in the block of point R / 512, so the blocks tile the output array and it ends holding `out` everywhere.
  The one host line after the region reads the 8192 × 2048 array as 4 × 2048 × 2048: entry (b, s, i) is out[2048 b + s, i].
  With X and M as the host lines before the region leave them, that entry is
      x[b, s, i] + ∑_k x[b, s, k] · ∑ { v(κ) · α : r(κ) = i, c(κ) = k }.
-/
import proofs.«405993_j69458211111443_2_alg».proof.Proof.Gen.KernelIdeal.Frame
import proofs.«405993_j69458211111443_2_alg».proof.Proof.KernelBody
import proofs.«405993_j69458211111443_2_alg».proof.Proof.KernelMat
import Idealize.ShloMosaic.Lib.Pipeline.Value
import Idealize.ShloMosaic.Lib.StableHlo.Run

set_option maxRecDepth 16384

noncomputable section

open scoped BigOperators

namespace Cert.Lateral.Arr

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

/-- The region's output array as a function of the two arrays it reads. -/
def outRows (X : S8192x2048.Idx → EReal) (M : S2048x2048.Idx → EReal) : S8192x2048.Idx → EReal :=
  fun i => X i + ∑ k : Fin 2048, X (ix2 (i 0) k) * M (ix2 k (i 1))

theorem hz : (![0, 0] : Fin 2 → Nat) = fun _ => 0 := funext fun a => by fin_cases a <;> rfl

/-- The printed index maps over the 16 points: the x window and the output window sit at block row t, the matrix window
    at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One stored element, when the loaded block is rows [512 T, 512 T + 512) of X and the loaded matrix is M. -/
theorem pay_rows (x0 : Vec Ideal S512x2048 .f32) (x1 : Vec Ideal S2048x2048 .bf16)
    (X : S8192x2048.Idx → EReal) (M : S2048x2048.Idx → EReal) (T : Nat) (hT : T < 16)
    (h0 : ∀ (p : Fin 512) (k : Fin 2048), x0 (ix2 p k) = X (ix2 (⟨T * 512 + p.val, by have := p.isLt; omega⟩ : Fin 8192) k))
    (h1 : ∀ (k q : Fin 2048), x1 (ix2 k q) = M (ix2 k q)) (p : Fin 512) (q : Fin 2048) :
    k0_pay1 (F := Ideal) x0 x1 (ix2 p q) = outRows X M (ix2 (⟨T * 512 + p.val, by have := p.isLt; omega⟩ : Fin 8192) q) := by
  rw [Body.pay_at]
  unfold outRows
  rw [h0]
  refine congrArg (X (ix2 (⟨T * 512 + p.val, by have := p.isLt; omega⟩ : Fin 8192) q) + ·) (Finset.sum_congr rfl fun k _ => ?_)
  rw [h0, h1]

variable (m : (ℓ : Loc nD τ sig) → Buf (Elt Ideal) ℓ) (ρ : Dev nD → PrngReg)

/-- What point t writes back is block t of `outRows` of the two arrays as the region finds them. -/
theorem flushed_eq (c : Dev nD) (t : Fin cfg0.N) :
    (dats m 0 c).flushed 2 t = ((cfg0.win 2).blk t).view.read (Elt Ideal) (outRows (V m c main_v19) (V m c main_v18)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S2048x2048) hz]
  obtain ⟨e00, e01, e10, e11, e20, e21⟩ := idx_facts t
  have hT : t.val < 16 := lt_of_lt_of_eq t.isLt N_0
  funext y
  obtain ⟨p, q, rfl⟩ : ∃ (p : Fin 512) (q : Fin 2048), y = ix2 p q := ⟨y 0, y 1, eq_ix2 y⟩
  show k0_pay1 (F := Ideal) (iblk m c 0 t) (iblk m c 1 t) (ix2 p q)
    = outRows (V m c main_v19) (V m c main_v18) (((cfg0.win 2).blk t).view.emb (ix2 p q))
  refine (pay_rows (iblk m c 0 t) (iblk m c 1 t) (V m c main_v19) (V m c main_v18) t.val hT ?_ ?_ p q).trans ?_
  · intro p' k
    show V m c main_v19 (((cfg0.win 0).blk t).view.emb (ix2 p' k)) = V m c main_v19 _
    refine congrArg (V m c main_v19) (funext fun a => Fin.ext ?_)
    match a with
    | ⟨0, _⟩ => show win0_0.index t (0 : Fin 2) * 512 + 1 * p'.val = t.val * 512 + p'.val; omega
    | ⟨1, _⟩ => show win0_0.index t (1 : Fin 2) * 2048 + 1 * k.val = k.val; omega
  · intro k q'
    show V m c main_v18 (((cfg0.win 1).blk t).view.emb (ix2 k q')) = V m c main_v18 _
    refine congrArg (V m c main_v18) (funext fun a => Fin.ext ?_)
    match a with
    | ⟨0, _⟩ => show win0_1.index t (0 : Fin 2) * 2048 + 1 * k.val = k.val; omega
    | ⟨1, _⟩ => show win0_1.index t (1 : Fin 2) * 2048 + 1 * q'.val = q'.val; omega
  · refine congrArg (outRows (V m c main_v19) (V m c main_v18)) (funext fun a => Fin.ext ?_)
    match a with
    | ⟨0, _⟩ => show t.val * 512 + p.val = win0_2.index t (0 : Fin 2) * 512 + 1 * p.val; omega
    | ⟨1, _⟩ => show q.val = win0_2.index t (1 : Fin 2) * 2048 + 1 * q.val; omega

/-- An index of the output array is in point t's block iff each coordinate is in the block's range on its axis. -/
theorem mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v20).slice (win0_2.rect t)).set ↔ _
  rw [View.set_slice_whole, Rect.mem_set_unit]
  exact Iff.rfl

/-- The blocks tile the output: row R is in the block of point R / 512. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 16 := N_0
  let t : Fin cfg0.N := ⟨(i 0).val / 512, by rw [hN]; omega⟩
  obtain ⟨e00, e01, e10, e11, e20, e21⟩ := idx_facts t
  have ht : t.val = (i 0).val / 512 := rfl
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The output array after the region. -/
theorem final (c : Dev nD) : (dats m 0 c).arrAt 2 cfg0.N = outRows (V m c main_v19) (V m c main_v18) :=
  (dats m 0 c).arrAt_eq_of_cover 2 (outRows (V m c main_v19) (V m c main_v18)) (fun t _ => flushed_eq m c t) cover

/-- The program's result: the output array read as 4 × 2048 × 2048. -/
theorem tail_eq (c : Dev nD) :
    Pipeline.afterTail₀ cfgs (dats m) 0 (V0 m) [hostOps1] c main_v21
      = shapeCast S4x2048x2048 (outRows (V m c main_v19) (V m c main_v18)) shapeCasts_S8192x2048_S4x2048x2048 := by
  unfold Pipeline.afterTail₀
  show StableHlo.after hostOps1 _ (Proc.devRef .tc main_v21) = _
  after_results
  rw [(Pipeline.withArrays_arr spec0 launch0.win.arr_inj c _ _ 2).trans (final m c)]
  rfl

end Cert.Lateral.Arr

end
-- ==== Proof.KernelValue.lean ====
/-
  The idealized kernel's run, read: every fair execution terminates with the result array holding, at (b, s, i),
      x[b, s, i] + ∑_k x[b, s, k] · ∑ { v(κ) · α : r(κ) = i, c(κ) = k }
  (the specification's `outK`) whenever every index word lies in [0, 2048), and with the four arguments unchanged.
-/
import proofs.«405993_j69458211111443_2_alg».proof.Proof.KernelArray

set_option maxRecDepth 16384

noncomputable section

open scoped BigOperators

namespace Cert.Lateral.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result array, from the arguments: the output rows read as 4 × 2048 × 2048. -/
def resultOf (c : Dev nD) : S4x2048x2048.Idx → EReal :=
  shapeCast S4x2048x2048 (outRows (V m c main_v19) (V m c main_v18)) shapeCasts_S8192x2048_S4x2048x2048

/-- The frame run re-posted: the result array named, the arguments unchanged. -/
theorem run_named : θ_run defs (onTc (τ := τ) (main (F := Ideal))) ⟨m, fun _ => 0, ρ⟩ (fun r => ∀ c : Dev nD,
      r.2.mem ((c.tc : Thread nD τ).loc main_v21) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- One entry of the output rows, when X is x read as rows and M is the scaled transposed dense matrix. -/
theorem outRows_at (X : S8192x2048.Idx → EReal) (M : S2048x2048.Idx → EReal)
    (x : S4x2048x2048.Idx → EReal) (idx : IVec S2x419430 32) (v : S419430.Idx → EReal) (α : S_.Idx → EReal)
    (hX : ∀ (R : Fin 8192) (q : Fin 2048) (b : Fin 4) (s : Fin 2048), R.val = b.val * 2048 + s.val → X (ix2 R q) = x (ix3 b s q))
    (hM : ∀ k i : Fin 2048, M (ix2 k i) = ∑ κ ∈ connSet idx i k, v κ * α ix0)
    (b : Fin 4) (s i : Fin 2048) (R : Fin 8192) (hR : R.val = b.val * 2048 + s.val) :
    outRows X M (ix2 R i) = outK x idx v α b s i := by
  unfold outRows outK
  rw [hX R i b s hR]
  refine congrArg (x (ix3 b s i) + ·) (Finset.sum_congr rfl fun k _ => ?_)
  rw [hX R k b s hR, hM k i]

/-- The result at (b, s, i), with every index word in range. -/
theorem resultOf_at (c : Dev nD)
    (hr : ∀ (a : Fin 2) (k : Fin 419430), 0 ≤ ((m ((c : Thread nD τ).loc main_arg1) : IVec S2x419430 32) (ix2 a k)).toInt
      ∧ ((m ((c : Thread nD τ).loc main_arg1) : IVec S2x419430 32) (ix2 a k)).toInt < 2048)
    (b : Fin 4) (s i : Fin 2048) :
    resultOf m c (ix3 b s i) = outK (m ((c : Thread nD τ).loc main_arg0)) (m ((c : Thread nD τ).loc main_arg1))
      (m ((c : Thread nD τ).loc main_arg2)) (m ((c : Thread nD τ).loc main_arg3)) b s i := by
  have hR : b.val * 2048 + s.val < 8192 := by have := b.isLt; have := s.isLt; omega
  unfold resultOf
  rw [shapeCast_apply _ shapeCasts_S8192x2048_S4x2048x2048 (ix3 b s i) (ix2 (⟨b.val * 2048 + s.val, hR⟩ : Fin 8192) i)
    (by rewrite [Shape.rowMajor_val_two, Shape.rowMajor_val_three]; rfl)]
  exact outRows_at _ _ (m ((c : Thread nD τ).loc main_arg0)) (m ((c : Thread nD τ).loc main_arg1))
    (m ((c : Thread nD τ).loc main_arg2)) (m ((c : Thread nD τ).loc main_arg3))
    (fun R q b' s' h => by rw [Host.V_rows]; exact Host.rowsX_at _ b' s' q R h)
    (fun k i' => by rw [Host.V_mat]; exact Host.matM_at _ _ _ hr k i')
    b s i ⟨b.val * 2048 + s.val, hR⟩ rfl

end Cert.Lateral.Arr

end
-- ==== Proof.lean ====
/-
  A residual product with a sparse matrix given as a coordinate list, against its dense reference.

  Inputs: x (4 × 2048 × 2048), a list of 419430 connections with row words r(k) and column words c(k) (two rows of one
  32-bit integer array) and values v(k), and a scale α. The dense matrix is W[p, q] = ∑ { v(k) : r(k) = p, c(k) = q }.

  The reference scatter-adds the values at (r(k), c(k)) into a zero matrix, contracts x's last axis with W's second axis
  and scales:        ref[b, s, i] = x[b, s, i] + α · ∑_j x[b, s, j] · W[i, j].
  The kernel's program scales the values first, scatter-adds them at the FLAT word c(k) · 2048 + r(k) into a zero vector
  of 2048² entries read as a matrix M (so M is α · Wᵀ), and one launch of 16 points computes, 512 rows at a time,
                     ker[b, s, i] = x[b, s, i] + ∑_j x[b, s, j] · M[j, i].

  The precondition: every entry of x, every value and α are finite, and every index word lies in [0, 2048) — the range
  of the two axes the reference indexes with them. Outside that range the two programs differ (a row word 2048 is dropped
  by the reference's two-axis scatter but lands on the next row of the kernel's flat vector), inside it the flat word
  neither overflows nor is negative, and c · 2048 + r = j · 2048 + i exactly when c = j and r = i. Then
      M[j, i] = ∑ { v(k) · α : r(k) = i, c(k) = j },
  and on finite inputs α moves across both finite sums by distributivity (which fails at infinities: finiteness is used).

  The three frames: the two kernel programs' are the generated frame certificates, the reference's its generated run with
  the result dropped. The idealization rewrote no operation, so there is nothing to preserve. The value claim: the
  kernel's run read off its frame (blocks, cover, the reshape after the region) and the reference's run read one
  operation at a time both end at the specification's array.
-/
import proofs.«405993_j69458211111443_2_alg».proof.Defs
import proofs.«405993_j69458211111443_2_alg».proof.Proof.Gen.Kernel
import proofs.«405993_j69458211111443_2_alg».proof.Proof.Gen.Kernel.Skeleton
import proofs.«405993_j69458211111443_2_alg».proof.Proof.Gen.Kernel.Launch
import proofs.«405993_j69458211111443_2_alg».proof.Proof.Gen.Kernel.Points
import proofs.«405993_j69458211111443_2_alg».proof.Proof.Gen.Kernel.Frame
import proofs.«405993_j69458211111443_2_alg».proof.Proof.Gen.KernelIdeal
import proofs.«405993_j69458211111443_2_alg».proof.Proof.Gen.KernelIdeal.Skeleton
import proofs.«405993_j69458211111443_2_alg».proof.Proof.Gen.KernelIdeal.Launch
import proofs.«405993_j69458211111443_2_alg».proof.Proof.Gen.KernelIdeal.Points
import proofs.«405993_j69458211111443_2_alg».proof.Proof.Gen.KernelIdeal.Frame
import proofs.«405993_j69458211111443_2_alg».proof.Proof.Gen.ReferenceIdeal
import proofs.«405993_j69458211111443_2_alg».proof.Proof.Gen.Pre_finite_inputs
import proofs.«405993_j69458211111443_2_alg».proof.Proof.Gen.ReferenceIdeal.Run
import proofs.«405993_j69458211111443_2_alg».proof.Proof.Gen.ReferenceIdeal.Read
import proofs.«405993_j69458211111443_2_alg».proof.Proof.Spec
import proofs.«405993_j69458211111443_2_alg».proof.Proof.PreDecode
import proofs.«405993_j69458211111443_2_alg».proof.Proof.RefValue
import proofs.«405993_j69458211111443_2_alg».proof.Proof.KernelValue
import Idealize.ShloMosaic.Adequacy
import Idealize.ShloMosaic.Init

noncomputable section

namespace Cert.Proof

open Idealize.ShloMosaic Idealize.ShloMosaic.ValueIdx Idealize.SL.Sem

/-- The word-level kernel runs and keeps its arguments: its generated frame. -/
theorem frame_k : Cert.frame_Kernel := fun m ρ _ => Cert.Kernel.Gen.frame m ρ

/-- The idealized kernel runs and keeps its arguments: its generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the specification's array: the kernel at the arrangement with the scale folded into
    the values, equal to the reference's arrangement on finite inputs; the reference at its own. -/
theorem algebraic : Cert.algebraic_KernelIdeal_ReferenceIdeal := by
  intro m ρ m' ρ' hpre hagree
  have hf := fun c => Cert.Lateral.pre_facts _ _ _ _ (hpre c)
  refine ⟨fun c => Cert.Lateral.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.Lateral.Arr.run_named m ρ)
    obtain ⟨hx, hv, hα, hr⟩ := hf c
    funext i
    obtain ⟨b, s, q, rfl⟩ : ∃ (b : Fin 4) (s q : Fin 2048), i = ix3 b s q := ⟨i 0, i 1, i 2, eq_ix3 i⟩
    rw [Cert.Lateral.Arr.resultOf_at m c hr b s q]
    exact Cert.Lateral.outK_eq_outR _ _ _ _ hx hv hα b s q
  · refine (θ_run Cert.ReferenceIdeal.defs _ _).mono (fun _ h c => ⟨?_, (h c).2⟩)
      (Cert.ReferenceIdeal.Value.run (F := Ideal) m' ρ')
    obtain ⟨hx, hv, hα, hr⟩ := hf c
    rw [(h c).1, (hagree c).1, (hagree c).2.1, (hagree c).2.2.1, (hagree c).2.2.2,
      Cert.ReferenceIdeal.Read.val_main_v22_eq, Cert.Lateral.ref_eq_G _ _ _ _ hr]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
